-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S64 : Shape := ⟨1, ![64]⟩
abbrev S64x1 : Shape := ⟨2, ![64, 1]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 16
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S64, .f32⟩
  | .hbm, ⟨5, _⟩ => ⟨S64x1, .f32⟩
  | .hbm, ⟨6, _⟩ => ⟨S64x4096, .f32⟩
  | .hbm, ⟨7, _⟩ => ⟨S64x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S8192x4096, .bf16⟩
  | .hbm, ⟨13, _⟩ => ⟨S4096x4096, .bf16⟩
  | .hbm, ⟨14, _⟩ => ⟨S8192x4096, .f32⟩
  | .hbm, ⟨15, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S4096x64_S64x4096_S4096x4096_1_0_0_1_n_n_wf : DotDims.WF S4096x64 S64x4096 S4096x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v7) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S64 : Shape := ⟨1, ![64]⟩
abbrev S4x2048x64 : Shape := ⟨3, ![4, 2048, 64]⟩
abbrev S1x1x64 : Shape := ⟨3, ![1, 1, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S64, .f32⟩
  | .hbm, ⟨5, _⟩ => ⟨S4x2048x4096, .f32⟩
  | .hbm, ⟨6, _⟩ => ⟨S4x2048x64, .f32⟩
  | .hbm, ⟨7, _⟩ => ⟨S1x1x64, .f32⟩
  | .hbm, ⟨8, _⟩ => ⟨S4x2048x64, .f32⟩
  | .hbm, ⟨9, _⟩ => ⟨S4x2048x64, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.LoraAlgebra.lean ====
/-
  The algebraic law behind folding a low-rank update into a dense weight, over the extended reals at real entries.

  For a row `x` of the activations, a row `w` of the dense weight, the rank-`κ` factors `a` (one row per rank
  index) and `b` (one entry per rank index for the output column in question) and a scale `c`:

      ∑ i, x i * (w i + ∑ r, b r * (c * a r i))  =  ∑ i, x i * w i  +  ∑ r, ((∑ i, x i * a r i) * c) * b r .

  The left side contracts the activations against the COMBINED weight `w + b · (c · a)`; the right side adds the
  low-rank branch `((x · aᵀ) * c) · bᵀ` to the dense product. Over the reals this is distributivity and an exchange of
  the two finite sums. On the extended reals distributivity fails at the infinities, so the law is stated at entries that
  are (coercions of) real numbers; every partial sum is then itself a real number.
-/
import Idealize.ShloMosaic.PureOps.Ideal

open scoped BigOperators

namespace Cert.LoraAlgebra

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distribute, then exchange the sum over the contracted axis with the sum over the rank. -/
theorem fold_real {ι κ : Type*} [Fintype ι] [Fintype κ] (x w : ι → ℝ) (a : κ → ι → ℝ) (b : κ → ℝ) (c : ℝ) :
    (∑ i, x i * (w i + ∑ r, b r * (c * a r i)))
      = (∑ i, x i * w i) + ∑ r, ((∑ i, x i * a r i) * c) * b r := by
  simp only [mul_add, Finset.sum_add_distrib, Finset.mul_sum, Finset.sum_mul]
  congr 1
  rw [Finset.sum_comm]
  exact Finset.sum_congr rfl fun r _ => Finset.sum_congr rfl fun i _ => by ring

/-- The law on the extended reals, at real entries: both sides are the coercion of the real expression. -/
theorem fold_ereal {ι κ : Type*} [Fintype ι] [Fintype κ] (x w : ι → ℝ) (a : κ → ι → ℝ) (b : κ → ℝ) (c : ℝ) :
    (∑ i, (x i : EReal) * ((w i : EReal) + ∑ r, (b r : EReal) * ((c : EReal) * (a r i : EReal))))
      = (∑ i, (x i : EReal) * (w i : EReal)) + ∑ r, ((∑ i, (x i : EReal) * (a r i : EReal)) * (c : EReal)) * (b r : EReal) := by
  simp only [← EReal.coe_mul, ← coe_sum, ← EReal.coe_add]
  exact congrArg _ (fold_real x w a b c)

end Cert.LoraAlgebra
-- ==== Proof.LoraSpec.lean ====
/-
  The result of the layer, entry by entry, in the two arrangements the two programs compute it in.

  Inputs: activations `X : [4, 2048, 4096]`, a dense weight `W : [4096, 4096]` (output × input), the low-rank factors
  `A : [64, 4096]` (rank × input) and `B : [4096, 64]` (output × rank), and a scale `c` applied to every rank index
  (all four adapters have alpha / rank = 32 / 16 = 2).

  * `refAt`: the dense product plus the low-rank branch, `x · Wᵀ + ((x · Aᵀ) * c) · Bᵀ`.
  * `kerAt`: one dense product against the combined weight, `x · (W + B · (c * A))ᵀ`.

  At real entries the two agree (`kerAt_eq_refAt`), by the law of Proof/LoraAlgebra.lean.
-/
import proofs.«109684_j83949430767868_1_alg».proof.Proof.LoraAlgebra
import Idealize.ShloMosaic.Lib.ValueIdx

noncomputable section

open scoped BigOperators

namespace Cert.LoraSpec

open Idealize.ShloMosaic Idealize.ShloMosaic.ValueIdx

/-- The scale's word, `2.0` in f32, denotes the real number 2. -/
theorem ofBits_two : Ideal.ofBits .f32 0x40000000#32 = ((2 : ℝ) : EReal) := by
  simp [Ideal.ofBits, Ideal.ieee, -EReal.coe_mul]; norm_num

abbrev SX : Shape := ⟨3, ![4, 2048, 4096]⟩
abbrev SW : Shape := ⟨2, ![4096, 4096]⟩
abbrev SA : Shape := ⟨2, ![64, 4096]⟩
abbrev SB : Shape := ⟨2, ![4096, 64]⟩

/-- Entry `(b, s, o)` as the reference arranges it: the dense product plus the scaled low-rank branch. -/
def refAt (c : EReal) (X : SX.Idx → EReal) (W : SW.Idx → EReal) (A : SA.Idx → EReal) (B : SB.Idx → EReal)
    (b : Fin 4) (s : Fin 2048) (o : Fin 4096) : EReal :=
  (∑ k : Fin 4096, X (ix3 b s k) * W (ix2 o k))
    + ∑ r : Fin 64, ((∑ k : Fin 4096, X (ix3 b s k) * A (ix2 r k)) * c) * B (ix2 o r)

/-- Entry `(k, o)` of the combined weight, transposed (input × output): `W[o, k] + ∑ r, B[o, r] * (c * A[r, k])`. -/
def combAt (c : EReal) (W : SW.Idx → EReal) (A : SA.Idx → EReal) (B : SB.Idx → EReal) (k o : Fin 4096) : EReal :=
  W (ix2 o k) + ∑ r : Fin 64, B (ix2 o r) * (c * A (ix2 r k))

/-- Entry `(b, s, o)` as the kernel arranges it: one contraction against the combined weight. -/
def kerAt (c : EReal) (X : SX.Idx → EReal) (W : SW.Idx → EReal) (A : SA.Idx → EReal) (B : SB.Idx → EReal)
    (b : Fin 4) (s : Fin 2048) (o : Fin 4096) : EReal :=
  ∑ k : Fin 4096, X (ix3 b s k) * combAt c W A B k o

/-- At real entries and a real scale the two arrangements agree. -/
theorem kerAt_eq_refAt (c : ℝ) (X : SX.Idx → EReal) (W : SW.Idx → EReal) (A : SA.Idx → EReal) (B : SB.Idx → EReal)
    (hX : ∀ i, ∃ r : ℝ, X i = r) (hW : ∀ i, ∃ r : ℝ, W i = r) (hA : ∀ i, ∃ r : ℝ, A i = r) (hB : ∀ i, ∃ r : ℝ, B i = r)
    (b : Fin 4) (s : Fin 2048) (o : Fin 4096) :
    kerAt c X W A B b s o = refAt c X W A B b s o := by
  choose x hx using hX
  choose w hw using hW
  choose a ha using hA
  choose bb hb using hB
  unfold kerAt refAt combAt
  simp only [hx, hw, ha, hb]
  exact Cert.LoraAlgebra.fold_ereal (fun k : Fin 4096 => x (ix3 b s k)) (fun k => w (ix2 o k))
    (fun (r : Fin 64) (k : Fin 4096) => a (ix2 r k)) (fun r => bb (ix2 o r)) c

end Cert.LoraSpec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«109684_j83949430767868_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KerHost.lean ====
/-
  What the matrix product's two operands hold when the kernel region is entered, entry by entry (at the ideal values,
  where narrowing to bf16 is the identity).

  * The left operand is the activations flattened: row `p` of the `[8192, 4096]` array is row `(p / 2048, p % 2048)` of
    `X : [4, 2048, 4096]` (a row-major reshape keeps the position `(b * 2048 + s) * 4096 + k`).
  * The right operand is the COMBINED weight, transposed: entry `(k, o)` is `W[o, k] + ∑ r, B[o, r] * (c * A[r, k])`,
    i.e. `combAt` of Proof/LoraSpec.lean, with `c` the broadcast scale.
-/
import proofs.«109684_j83949430767868_1_alg».proof.Proof.Gen.KernelIdeal.Frame
import proofs.«109684_j83949430767868_1_alg».proof.Proof.LoraSpec
import proofs.«109684_j83949430767868_1_alg».proof.Proof.LibPlainDot
import Idealize.ShloMosaic.Lib.Pipeline.Value
import Idealize.ShloMosaic.Lib.StableHlo.Run

noncomputable section

open scoped BigOperators

namespace Cert.KernelIdeal.KerHost

open Cert.KernelIdeal Cert.KernelIdeal.Gen Idealize.ShloMosaic Idealize.ShloMosaic.TcCoe Idealize.SL.Sem
open Idealize.ShloMosaic.ValueIdx Idealize.ShloMosaic.StableHlo Cert.LoraSpec

variable (m : (ℓ : Loc nD τ sig) → Buf (Elt Ideal) ℓ)

/-- The four arguments as launched, under the names of the specification. -/
abbrev argX (c : Dev nD) : FVec Ideal S4x2048x4096 .f32 := m ((c : Thread nD τ).loc main_arg0)
abbrev argW (c : Dev nD) : FVec Ideal S4096x4096 .f32 := m ((c : Thread nD τ).loc main_arg1)
abbrev argA (c : Dev nD) : FVec Ideal S64x4096 .f32 := m ((c : Thread nD τ).loc main_arg2)
abbrev argB (c : Dev nD) : FVec Ideal S4096x64 .f32 := m ((c : Thread nD τ).loc main_arg3)

/-- The scale as the host lines build it: the constant `[64]` broadcast to `[64, 1]` and then to `[64, 4096]`. -/
abbrev scaleArr : FVec Ideal S64x4096 .f32 :=
  broadcastInDim S64x4096 ![0, 1] bcast_S64x1_S64x4096_0_1
    (broadcastInDim S64x1 ![0] bcast_S64_S64x1_0 (constant (F := Ideal) S64 .f32 0x40000000#32))

/-- It reads the constant's word at every entry. -/
theorem scaleArr_apply (i : S64x4096.Idx) : scaleArr i = Ideal.ofBits .f32 0x40000000#32 := rfl

/-- The left operand as the region finds it: the flattened activations, narrowed. -/
theorem left_eq (c : Dev nD) :
    V m c main_v7
      = (truncf (F := Ideal) .bf16 (shapeCast S8192x4096 (argX m c) shapeCasts_S4x2048x4096_S8192x4096) bitsLt_bf16_f32 : FVec Ideal S8192x4096 .bf16) := by
  show StableHlo.after hostOps0 (fun b => m (c, b)) (Proc.devRef .tc main_v7) = _
  after_results
  rfl

/-- The right operand as the region finds it: the combined weight transposed, narrowed. -/
theorem right_eq (c : Dev nD) :
    V m c main_v8
      = (truncf (F := Ideal) .bf16 (transpose S4096x4096 [1, 0]
          (addf (argW m c) (Host.dotGeneral (F := Ideal) (φ₁ := .f32) (φ₂ := .f32) dot_S4096x64_S64x4096_S4096x4096_1_0_0_1_n_n none (argB m c) (mulf scaleArr (argA m c))))
          transposes_S4096x4096_S4096x4096_1_0) bitsLt_bf16_f32 : FVec Ideal S4096x4096 .bf16) := by
  show StableHlo.after hostOps0 (fun b => m (c, b)) (Proc.devRef .tc main_v8) = _
  after_results

/-- Row `p` of the left operand is row `(p / 2048, p % 2048)` of the activations. -/
theorem left_at (c : Dev nD) (p : Fin 8192) (k : Fin 4096) :
    V m c main_v7 (ix2 p k)
      = argX m c (ix3 (⟨p.val / 2048, by have := p.isLt; omega⟩ : Fin 4) (⟨p.val % 2048, Nat.mod_lt _ (by decide)⟩ : Fin 2048) k) := by
  rw [left_eq, truncf_apply]
  refine shapeCast_apply _ _ _ _ ?_
  rw [Shape.rowMajor_val_three, Shape.rowMajor_val_two]
  show (p.val / 2048 * 2048 + p.val % 2048) * 4096 + k.val = p.val * 4096 + k.val
  have := Nat.div_add_mod p.val 2048
  omega

/-- Entry `(k, o)` of the right operand is the combined weight's entry for input `k` and output `o`. -/
theorem right_at (c : Dev nD) (k o : Fin 4096) :
    V m c main_v8 (ix2 k o) = combAt (Ideal.ofBits .f32 0x40000000#32) (argW m c) (argA m c) (argB m c) k o := by
  rw [right_eq, truncf_apply,
    transpose_apply [1, 0] _ transposes_S4096x4096_S4096x4096_1_0 (ix2 k o) (ix2 o k)
      (fun b => match b with | ⟨0, _⟩ => rfl | ⟨1, _⟩ => rfl),
    addf_apply]
  unfold combAt
  congr 1
  simp only [Host.dotGeneral]
  rw [PlainMatmul.dotGeneral_apply dot_S4096x64_S64x4096_S4096x4096_1_0_0_1_n_n dot_S4096x64_S64x4096_S4096x4096_1_0_0_1_n_n_wf rfl]
  refine Finset.sum_congr rfl fun r _ => ?_
  rw [mulf_apply, scaleArr_apply]

end Cert.KernelIdeal.KerHost

end
-- ==== Proof.KerArray.lean ====
/-
  The kernel region's output array after the run: the matrix product of the two operand arrays as the region finds
  them, entry by entry.

  The grid is 8 × 8. Point `t = (i, j)` loads rows `[1024 i, 1024 i + 1024)` of the left operand (all 4096 columns) and
  columns `[512 j, 512 j + 512)` of the right operand (all 4096 rows), multiplies the two blocks into a zero accumulator
  and writes the `1024 × 512` result back as block `(i, j)` of the output. Entry `(p, q)` of that block is
  `∑ k, L[1024 i + p, k] * R[k, 512 j + q]`, which is entry `(1024 i + p, 512 j + q)` of the whole product; the 64
  blocks tile the `8192 × 4096` output, so the array ends as the whole product.
-/
import proofs.«109684_j83949430767868_1_alg».proof.Proof.Gen.KernelIdeal.Frame
import proofs.«109684_j83949430767868_1_alg».proof.Proof.LibPlainMatmul
import Idealize.ShloMosaic.Lib.Pipeline.Value
import Idealize.ShloMosaic.Lib.ValueIdx

noncomputable section

open scoped BigOperators

namespace Cert.KernelIdeal.KerArray

open Cert.KernelIdeal Cert.KernelIdeal.Gen Idealize.ShloMosaic Idealize.ShloMosaic.TcCoe Idealize.SL.Sem
open Idealize.ShloMosaic.ValueIdx
open Idealize.ShloMosaic.Pipeline (Dat)

/-- The product of an `8192 × 4096` array by a `4096 × 4096` array, entry by entry. -/
def prodArr (L : S8192x4096.Idx → EReal) (R : S4096x4096.Idx → EReal) : S8192x4096.Idx → EReal :=
  fun J => ∑ k : Fin 4096, L (ix2 (n0 := 8192) (n1 := 4096) (J 0) k) * R (ix2 (n0 := 4096) (n1 := 4096) k (J 1))

/-- The body's payload at entry `(p, q)` of the block: row `p` of the left block against column `q` of the right block
    (the casts to the same shape are the identity, the accumulator is zero). -/
theorem pay_at (x0 : Vec Ideal S1024x4096 .bf16) (x1 : Vec Ideal S4096x512 .bf16) (p : Fin 1024) (q : Fin 512) :
    k0_pay1 x0 x1 (ix2 p q) = ∑ k : Fin 4096, x0 (ix2 p k) * x1 (ix2 k q) := by
  unfold k0_pay1
  simp only [shapeCast_self]
  exact PlainMatmul.matmul_zero_apply _ dot_S1024x4096_S4096x512_S1024x512_1_0_0_1_n_n_wf rfl none x0 x1 p q

/-- A block's payload is the whole product's entry once the two blocks' rows and columns are those of the whole arrays. -/
theorem blk_entry (L : S8192x4096.Idx → EReal) (R : S4096x4096.Idx → EReal)
    (x0 : Vec Ideal S1024x4096 .bf16) (x1 : Vec Ideal S4096x512 .bf16) (j : S1024x512.Idx) (J : S8192x4096.Idx)
    (h0 : ∀ k : Fin 4096, x0 (ix2 (n0 := 1024) (n1 := 4096) (j 0) k) = L (ix2 (n0 := 8192) (n1 := 4096) (J 0) k))
    (h1 : ∀ k : Fin 4096, x1 (ix2 (n0 := 4096) (n1 := 512) k (j 1)) = R (ix2 (n0 := 4096) (n1 := 4096) k (J 1))) :
    k0_pay1 x0 x1 j = prodArr L R J := by
  obtain ⟨p, q, rfl⟩ : ∃ (p : Fin 1024) (q : Fin 512), j = ix2 p q := ⟨j 0, j 1, eq_ix2 j⟩
  rw [pay_at]
  unfold prodArr
  exact Finset.sum_congr rfl fun k _ => congrArg₂ (· * ·) (h0 k) (h1 k)

variable (m : (ℓ : Loc nD τ sig) → Buf (Elt Ideal) ℓ)

theorem zero_offsets : (![0, 0] : Fin 2 → Nat) = fun _ => 0 := funext fun a => by fin_cases a <;> rfl

/-- The printed index maps over the 64 points: the left block moves with the output's row block and sits at column block
    0; the right block sits at row block 0 and moves with the output's column block; the output's block is `(t / 8, t % 8)`. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every block `(i, j)` of the 8 × 8 tiling is some point's. -/
theorem index_onto : ∀ (i j : Fin 8), ∃ t : Fin cfg0.N, win0_2.index t = ![i.val, j.val] :=
  (by decide +kernel : ∀ (i j : Fin 8), ∃ t : Fin grid0.N, win0_2.index t = ![i.val, j.val])

/-- What point `t` writes back is block `t` of the whole product of the operand arrays as the region finds them. -/
theorem flushed_eq (c : Dev nD) (t : Fin cfg0.N) :
    (dats m 0 c).flushed 2 t
      = ((cfg0.win 2).blk t).view.read (Elt Ideal) (prodArr (V m c main_v7) (V m c main_v8)) := by
  show (cfg0.win 2).cut (grid0.coords t) ((dats m 0 c).after 2 t) = _
  rw [after0_2]
  unfold out0_2
  rw [View.canon_unit_zero zero_offsets]
  simp only [View.ld_unit_zero (S := S1024x4096) zero_offsets, View.ld_unit_zero (S := S4096x512) zero_offsets]
  obtain ⟨e00, e01, e10, e11, -, -⟩ := index_facts t
  funext j
  show k0_pay1 (iblk m c 0 t) (iblk m c 1 t) j = prodArr (V m c main_v7) (V m c main_v8) (((cfg0.win 2).blk t).view.emb j)
  refine blk_entry (V m c main_v7) (V m c main_v8) (iblk m c 0 t) (iblk m c 1 t) j (((cfg0.win 2).blk t).view.emb j) ?_ ?_
  · intro k
    show V m c main_v7 (((cfg0.win 0).blk t).view.emb (ix2 (n0 := 1024) (n1 := 4096) (j 0) k)) = _
    refine congrArg (V m c main_v7) (funext fun a => Fin.ext ?_)
    match a with
    | ⟨0, _⟩ => show win0_0.index t (0 : Fin 2) * 1024 + 1 * (j 0).val = win0_2.index t (0 : Fin 2) * 1024 + 1 * (j 0).val; rw [e00]
    | ⟨1, _⟩ => show win0_0.index t (1 : Fin 2) * 4096 + 1 * k.val = k.val; rw [e01]; omega
  · intro k
    show V m c main_v8 (((cfg0.win 1).blk t).view.emb (ix2 (n0 := 4096) (n1 := 512) k (j 1))) = _
    refine congrArg (V m c main_v8) (funext fun a => Fin.ext ?_)
    match a with
    | ⟨0, _⟩ => show win0_1.index t (0 : Fin 2) * 4096 + 1 * k.val = k.val; rw [e10]; omega
    | ⟨1, _⟩ => show win0_1.index t (1 : Fin 2) * 512 + 1 * (j 1).val = win0_2.index t (1 : Fin 2) * 512 + 1 * (j 1).val; rw [e11]

/-- An entry of the output lies in point `t`'s block iff each coordinate lies in the block's range on its axis. -/
theorem mem_block (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v9).slice (win0_2.rect t)).set ↔ _
  rw [View.set_slice_whole, Rect.mem_set_unit]
  exact Iff.rfl

/-- The blocks tile the output: entry `(P, Q)` lies in the block of the point whose block index is `(P / 1024, Q / 512)`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The output array after the run is the whole product of the operand arrays as the region finds them. -/
theorem final (c : Dev nD) : (dats m 0 c).arrAt 2 cfg0.N = prodArr (V m c main_v7) (V m c main_v8) :=
  (dats m 0 c).arrAt_eq_of_cover 2 (prodArr (V m c main_v7) (V m c main_v8)) (fun t _ => flushed_eq m c t) covered

end Cert.KernelIdeal.KerArray

end
-- ==== Proof.KerRun.lean ====
/-
  The idealized kernel's run, with its result named: after the region, the last host line reshapes the `[8192, 4096]`
  product back to `[4, 2048, 4096]`, so entry `(b, s, o)` of the result is entry `(2048 b + s, o)` of the product,
  `∑ k, X[b, s, k] * (W[o, k] + ∑ r, B[o, r] * (c * A[r, k]))`: `kerAt` of Proof/LoraSpec.lean.
-/
import proofs.«109684_j83949430767868_1_alg».proof.Proof.KerHost
import proofs.«109684_j83949430767868_1_alg».proof.Proof.KerArray

noncomputable section

open scoped BigOperators

namespace Cert.KernelIdeal.KerRun

open Cert.KernelIdeal Cert.KernelIdeal.Gen Idealize.ShloMosaic Idealize.ShloMosaic.TcCoe Idealize.SL.Sem
open Idealize.ShloMosaic.ValueIdx Idealize.ShloMosaic.StableHlo Cert.LoraSpec
open Cert.KernelIdeal.KerHost Cert.KernelIdeal.KerArray

variable (m : (ℓ : Loc nD τ sig) → Buf (Elt Ideal) ℓ) (ρ : Dev nD → PrngReg)

/-- The result array: `kerAt` of the four arguments as launched, entry by entry. -/
def result (c : Dev nD) : FVec Ideal S4x2048x4096 .f32 := fun i =>
  kerAt (Ideal.ofBits .f32 0x40000000#32) (argX m c) (argW m c) (argA m c) (argB m c) (i 0) (i 1) (i 2)

/-- The host line after the region leaves the product array reshaped. -/
theorem tail_eq (c : Dev nD) :
    Pipeline.afterTail₀ cfgs (dats m) 0 (V0 m) [hostOps1] c main_v10
      = (shapeCast S4x2048x4096 (prodArr (V m c main_v7) (V m c main_v8)) shapeCasts_S8192x4096_S4x2048x4096 : FVec Ideal S4x2048x4096 .f32) := by
  unfold Pipeline.afterTail₀
  show StableHlo.after hostOps1 _ (Proc.devRef .tc main_v10) = _
  after_results
  have e := (Pipeline.withArrays_arr spec0 launch0.win.arr_inj c (V0 m c) (fun w => (dats m 0 c).arrAt w cfg0.N) 2).trans (final m c)
  funext i
  exact congrFun (congrArg (fun a => shapeCast S4x2048x4096 a shapeCasts_S8192x4096_S4x2048x4096) e) i

/-- Entry `(b, s, o)` of what the tail leaves is `kerAt` there. -/
theorem tail_at (c : Dev nD) (b : Fin 4) (s : Fin 2048) (o : Fin 4096) :
    Pipeline.afterTail₀ cfgs (dats m) 0 (V0 m) [hostOps1] c main_v10 (ix3 b s o)
      = kerAt (Ideal.ofBits .f32 0x40000000#32) (argX m c) (argW m c) (argA m c) (argB m c) b s o := by
  have hb := b.isLt
  have hs := s.isLt
  have key : prodArr (V m c main_v7) (V m c main_v8) (ix2 (⟨b.val * 2048 + s.val, by omega⟩ : Fin 8192) o)
      = kerAt (Ideal.ofBits .f32 0x40000000#32) (argX m c) (argW m c) (argA m c) (argB m c) b s o := by
    unfold prodArr kerAt
    refine Finset.sum_congr rfl fun k _ => ?_
    rw [left_at, right_at]
    refine congrArg₂ (· * ·) (congrArg (argX m c) ?_) rfl
    refine congrArg₂ (fun (x : Fin 4) (y : Fin 2048) => ix3 x y k) (Fin.ext ?_) (Fin.ext ?_)
    · show (b.val * 2048 + s.val) / 2048 = b.val; omega
    · show (b.val * 2048 + s.val) % 2048 = s.val; omega
  rw [tail_eq,
    shapeCast_apply _ shapeCasts_S8192x4096_S4x2048x4096 (ix3 b s o)
      (ix2 (⟨b.val * 2048 + s.val, by omega⟩ : Fin 8192) o)
      (by rw [Shape.rowMajor_val_three, Shape.rowMajor_val_two]; rfl)]
  exact key

/-- What the tail leaves in the result buffer is `result`. -/
theorem tail_result (c : Dev nD) :
    Pipeline.afterTail₀ cfgs (dats m) 0 (V0 m) [hostOps1] c main_v10 = result m c := by
  funext i
  obtain ⟨b, s, o, rfl⟩ : ∃ (b : Fin 4) (s : Fin 2048) (o : Fin 4096), i = ix3 b s o := ⟨i 0, i 1, i 2, eq_ix3 i⟩
  exact tail_at m c b s o

/-- THE RUN of the idealized kernel: it terminates without fault, the result buffer holds `result`, the arguments are unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerRun

end
-- ==== Proof.RefValue.lean ====
/-
  The reference's result, read at an entry `(b, s, o)`: its last stage is the sum of the dense contraction
  `∑ k, X[b,s,k] * W[o,k]` and the low-rank branch `∑ r, ((∑ k, X[b,s,k] * A[r,k]) * c) * B[o,r]`, the scale `c` the
  broadcast constant. That is `refAt` of Proof/LoraSpec.lean: each contraction's operand indices are named by their
  coordinates, and the broadcast scale reads its word at every index.
-/
import proofs.«109684_j83949430767868_1_alg».proof.Proof.Gen.ReferenceIdeal.Read
import proofs.«109684_j83949430767868_1_alg».proof.Proof.LoraSpec

noncomputable section

open scoped BigOperators

namespace Cert.ReferenceIdeal.RefValue

open Cert.ReferenceIdeal Cert.ReferenceIdeal.Read Idealize.ShloMosaic Idealize.ShloMosaic.ValueIdx Cert.LoraSpec

/-- The operand indices of the dense contraction at entry `(b, s, o)`: `X` at `(b, s, k)`, `W` at `(o, k)`. -/
theorem lidx0 (b : Fin 4) (s : Fin 2048) (o : Fin 4096) (k : Fin 4096) :
    lidx_main_v0 (ix3 b s o) k = ix3 b s k := by
  funext a; match a with | ⟨0, _⟩ => rfl | ⟨1, _⟩ => rfl | ⟨2, _⟩ => rfl
theorem ridx0 (b : Fin 4) (s : Fin 2048) (o : Fin 4096) (k : Fin 4096) :
    ridx_main_v0 (ix3 b s o) k = ix2 o k := by
  funext a; match a with | ⟨0, _⟩ => rfl | ⟨1, _⟩ => rfl

/-- The operand indices of the down-projection at `(b, s, r)`: `X` at `(b, s, k)`, `A` at `(r, k)`. -/
theorem lidx1 (b : Fin 4) (s : Fin 2048) (r : Fin 64) (k : Fin 4096) :
    lidx_main_v1 (ix3 b s r) k = ix3 b s k := by
  funext a; match a with | ⟨0, _⟩ => rfl | ⟨1, _⟩ => rfl | ⟨2, _⟩ => rfl
theorem ridx1 (b : Fin 4) (s : Fin 2048) (r : Fin 64) (k : Fin 4096) :
    ridx_main_v1 (ix3 b s r) k = ix2 r k := by
  funext a; match a with | ⟨0, _⟩ => rfl | ⟨1, _⟩ => rfl

/-- The operand indices of the up-projection at `(b, s, o)`: the scaled projection at `(b, s, r)`, `B` at `(o, r)`. -/
theorem lidx5 (b : Fin 4) (s : Fin 2048) (o : Fin 4096) (r : Fin 64) :
    lidx_main_v5 (ix3 b s o) r = ix3 b s r := by
  funext a; match a with | ⟨0, _⟩ => rfl | ⟨1, _⟩ => rfl | ⟨2, _⟩ => rfl
theorem ridx5 (b : Fin 4) (s : Fin 2048) (o : Fin 4096) (r : Fin 64) :
    ridx_main_v5 (ix3 b s o) r = ix2 o r := by
  funext a; match a with | ⟨0, _⟩ => rfl | ⟨1, _⟩ => rfl

/-- The broadcast scale reads the constant's word at every index. -/
theorem scale_apply (i : S4x2048x64.Idx) : val_main_v3 (F := Ideal) i = Ideal.ofBits .f32 0x40000000#32 := by
  rw [val_main_v3_apply, val_main_v2_apply, val_main_cst_apply]; rfl

/-- The reference's result at entry `(b, s, o)` is `refAt` of the four arguments. -/
theorem ref_at (X : (⟨S4x2048x4096, .f32⟩ : BufTy).Contents (Elt Ideal)) (W : (⟨S4096x4096, .f32⟩ : BufTy).Contents (Elt Ideal))
    (A : (⟨S64x4096, .f32⟩ : BufTy).Contents (Elt Ideal)) (B : (⟨S4096x64, .f32⟩ : BufTy).Contents (Elt Ideal))
    (b : Fin 4) (s : Fin 2048) (o : Fin 4096) :
    val_main_v6 (F := Ideal) X W A B (ix3 b s o) = refAt (Ideal.ofBits .f32 0x40000000#32) X W A B b s o := by
  rw [val_main_v6_apply, val_main_v0_apply, val_main_v5_apply]
  simp only [lidx0, ridx0, lidx5, ridx5, val_main_v4_apply, val_main_v1_apply, lidx1, ridx1, scale_apply]
  rfl

end Cert.ReferenceIdeal.RefValue

end
-- ==== Proof.Finite.lean ====
/-
  The precondition read back: when `finite_inputs` holds of the four argument arrays, every entry of each is a real
  number (neither infinity). The predicate is the conjunction of four `all(|x| < +∞)`; a conjunction of bits is one
  exactly when each is, an `all` that is one had a one at every index, and on the extended reals `|x| < +∞` (with
  `|x| = max x (-x)`) excludes both `⊤` and `⊥`.
-/
import proofs.«109684_j83949430767868_1_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word the predicate compares against denotes `+∞`. -/
theorem ofBits_inf : Ideal.ofBits .f32 0x7F800000#32 = ⊤ := by
  simp [Ideal.ofBits, Ideal.ieee]

/-- An extended real whose absolute value is below `+∞` is a real number. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

variable [Cert.Pre_finite_inputs.Facts]

/-- Under `finite_inputs` every entry of every argument is a real number. -/
theorem entries_real (X : FVec Ideal S4x2048x4096 .f32) (W : FVec Ideal S4096x4096 .f32) (A : FVec Ideal S64x4096 .f32)
    (B : FVec Ideal S4096x64 .f32) (h : Cert.Pre_finite_inputs.fn (F := Ideal) X W A B = fun _ => 1#1) :
    (∀ i, ∃ r : ℝ, X i = r) ∧ (∀ i, ∃ r : ℝ, W i = r) ∧ (∀ i, ∃ r : ℝ, A i = r) ∧ (∀ i, ∃ r : ℝ, B i = r) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => real_of_abs_lt_top _ ?_, fun i => real_of_abs_lt_top _ ?_, fun i => real_of_abs_lt_top _ ?_,
    fun i => real_of_abs_lt_top _ ?_⟩
  · have e := Host.reduce_andi_all _ _ _ _ _ h1 i
    rw [← ofBits_inf]; exact e
  · have e := Host.reduce_andi_all _ _ _ _ _ h2 i
    rw [← ofBits_inf]; exact e
  · have e := Host.reduce_andi_all _ _ _ _ _ h3 i
    rw [← ofBits_inf]; exact e
  · have e := Host.reduce_andi_all _ _ _ _ _ h4 i
    rw [← ofBits_inf]; exact e

end Cert.Finite

end
-- ==== Proof.lean ====
/-
  A LoRA layer: `out = x · Wᵀ + ((x · Aᵀ) * c) · Bᵀ` with activations `x : [4, 2048, 4096]`, a dense weight
  `W : [4096, 4096]`, low-rank factors `A : [64, 4096]`, `B : [4096, 64]` and the per-rank scale `c = alpha / rank = 2`.

  The reference computes it as written: two contractions for the branch, one for the dense part, then the sum. The
  kernel first folds the branch into the weight, `W' = W + B · (c * A)`, and then computes ONE matrix product
  `x_flat · W'ᵀ` on an 8 × 8 grid of `1024 × 512` output blocks, each the product of a `1024 × 4096` row block of the
  flattened activations by a `4096 × 512` column block of `W'ᵀ`, and reshapes the `[8192, 4096]` product back.

  At the ideal values both narrowings to bf16 are the identity and each block product is an exact sum, so entry
  `(b, s, o)` of the kernel's result is `∑ k, x[b,s,k] * (W[o,k] + ∑ r, B[o,r] * (c * A[r,k]))` (Proof/KerRun.lean over
  Proof/KerHost.lean and Proof/KerArray.lean) and the reference's is
  `∑ k, x[b,s,k] * W[o,k] + ∑ r, ((∑ k, x[b,s,k] * A[r,k]) * c) * B[o,r]` (Proof/RefValue.lean). The two are equal by
  distributivity and an exchange of the two finite sums (Proof/LoraAlgebra.lean, Proof/LoraSpec.lean), which on the
  extended reals needs every entry to be a real number: that is what the precondition gives (Proof/Finite.lean).
  The ideal pass rewrote nothing, so `preserves` is trivial; the kernels' frames are the generated ones and the
  reference's frame is its run with the result dropped.
-/
import proofs.«109684_j83949430767868_1_alg».proof.Defs
import proofs.«109684_j83949430767868_1_alg».proof.Proof.Gen.Kernel
import proofs.«109684_j83949430767868_1_alg».proof.Proof.Gen.Kernel.Skeleton
import proofs.«109684_j83949430767868_1_alg».proof.Proof.Gen.Kernel.Launch
import proofs.«109684_j83949430767868_1_alg».proof.Proof.Gen.Kernel.Points
import proofs.«109684_j83949430767868_1_alg».proof.Proof.Gen.Kernel.Frame
import proofs.«109684_j83949430767868_1_alg».proof.Proof.Gen.KernelIdeal
import proofs.«109684_j83949430767868_1_alg».proof.Proof.Gen.KernelIdeal.Skeleton
import proofs.«109684_j83949430767868_1_alg».proof.Proof.Gen.KernelIdeal.Launch
import proofs.«109684_j83949430767868_1_alg».proof.Proof.Gen.KernelIdeal.Points
import proofs.«109684_j83949430767868_1_alg».proof.Proof.Gen.KernelIdeal.Frame
import proofs.«109684_j83949430767868_1_alg».proof.Proof.Gen.ReferenceIdeal
import proofs.«109684_j83949430767868_1_alg».proof.Proof.Gen.ReferenceIdeal.Run
import proofs.«109684_j83949430767868_1_alg».proof.Proof.Gen.ReferenceIdeal.Read
import proofs.«109684_j83949430767868_1_alg».proof.Proof.Gen.Pre_finite_inputs
import proofs.«109684_j83949430767868_1_alg».proof.Proof.KerRun
import proofs.«109684_j83949430767868_1_alg».proof.Proof.RefValue
import proofs.«109684_j83949430767868_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's last stage, at arguments satisfying the precondition, is the kernel's result array: entry by entry
    `refAt` on one side, `kerAt` on the other, equal at real entries and the real scale 2. -/
theorem ref_eq_result (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (Cert.KernelIdeal.KerHost.argX m c) (Cert.KernelIdeal.KerHost.argW m c)
      (Cert.KernelIdeal.KerHost.argA m c) (Cert.KernelIdeal.KerHost.argB m c) = fun _ => 1#1) :
    Cert.ReferenceIdeal.Read.val_main_v6 (F := Ideal) (Cert.KernelIdeal.KerHost.argX m c) (Cert.KernelIdeal.KerHost.argW m c)
      (Cert.KernelIdeal.KerHost.argA m c) (Cert.KernelIdeal.KerHost.argB m c) = Cert.KernelIdeal.KerRun.result m c := by
  obtain ⟨hX, hW, hA, hB⟩ := Cert.Finite.entries_real _ _ _ _ hpre
  funext i
  obtain ⟨b, s, o, rfl⟩ : ∃ (b : Fin 4) (s : Fin 2048) (o : Fin 4096), i = ix3 b s o := ⟨i 0, i 1, i 2, eq_ix3 i⟩
  rw [Cert.ReferenceIdeal.RefValue.ref_at]
  show _ = Cert.LoraSpec.kerAt _ _ _ _ _ b s o
  rw [Cert.LoraSpec.ofBits_two]
  exact (Cert.LoraSpec.kerAt_eq_refAt 2 _ _ _ _ hX hW hA hB b s o).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result array `KerRun.result` of the (agreeing) arguments. -/
theorem algebraic : Cert.algebraic_KernelIdeal_ReferenceIdeal := by
  intro m ρ m' ρ' hpre hagree
  refine ⟨fun c => Cert.KernelIdeal.KerRun.result m c, Cert.KernelIdeal.KerRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ref_eq_result m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
